-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x200000 : Shape := ⟨2, ![2, 200000]⟩
abbrev S200000x768 : Shape := ⟨2, ![200000, 768]⟩
abbrev S832x128 : Shape := ⟨2, ![832, 128]⟩
abbrev S128 : Shape := ⟨1, ![128]⟩
abbrev S128x5 : Shape := ⟨2, ![128, 5]⟩
abbrev S5 : Shape := ⟨1, ![5]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000x768 : S_.BroadcastsInDim S200000x768 (![] : Fin 0 → Fin S200000x768.rank)
  reducesTo_S200000x768_S_d0_1 : S200000x768.ReducesTo [0, 1] S_
  bcast_S_S832x128 : S_.BroadcastsInDim S832x128 (![] : Fin 0 → Fin S832x128.rank)
  reducesTo_S832x128_S_d0_1 : S832x128.ReducesTo [0, 1] S_
  bcast_S_S128 : S_.BroadcastsInDim S128 (![] : Fin 0 → Fin S128.rank)
  reducesTo_S128_S_d0 : S128.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg5 : FVec F S128x5 .f32) (main_arg6 : FVec F S5 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x5 .f32 := Host.absf main_arg5
  let main_cst_6 : FVec F S_ .f32 := constant S_ .f32 0x7F800000#32
  let main_v20 : FVec F S128x5 .f32 := broadcastInDim S128x5 ![] bcast_S_S128x5 main_cst_6
  let main_v21 : IVec S128x5 1 := cmpf .olt main_v19 main_v20
  let main_c_7 : IVec S_ 1 := constantI S_ 1 1#1
  let main_v22 : IVec S_ 1 := (fun x v => Host.reduce IntOp.andi x v reducesTo_S128x5_S_d0_1 h_S_) main_v21 main_c_7
  let main_v23 : IVec S_ 1 := andi main_v18 main_v22
  let main_v24 : FVec F S5 .f32 := Host.absf main_arg6
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  main_v28

def fn {F : FTy → Type} [FloatOps F] (main_arg0 : FVec F S100000x64 .f32) (main_arg1 : IVec S2x200000 32) (main_arg2 : FVec F S200000x768 .f32) (main_arg3 : FVec F S832x128 .f32) (main_arg4 : FVec F S128 .f32) (main_arg5 : FVec F S128x5 .f32) (main_arg6 : FVec F S5 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200000x768 .f32 := Host.absf main_arg2
  let main_cst_0 : FVec F S_ .f32 := constant S_ .f32 0x7F800000#32
  let main_v5 : FVec F S200000x768 .f32 := broadcastInDim S200000x768 ![] bcast_S_S200000x768 main_cst_0
  let main_v6 : IVec S200000x768 1 := cmpf .olt main_v4 main_v5
  let main_c_1 : IVec S_ 1 := constantI S_ 1 1#1
  let main_v7 : IVec S_ 1 := (fun x v => Host.reduce IntOp.andi x v reducesTo_S200000x768_S_d0_1 h_S_) main_v6 main_c_1
  let main_v8 : IVec S_ 1 := andi main_v3 main_v7
  let main_v9 : FVec F S832x128 .f32 := Host.absf main_arg3
  let main_cst_2 : FVec F S_ .f32 := constant S_ .f32 0x7F800000#32
  let main_v10 : FVec F S832x128 .f32 := broadcastInDim S832x128 ![] bcast_S_S832x128 main_cst_2
  let main_v11 : IVec S832x128 1 := cmpf .olt main_v9 main_v10
  let main_c_3 : IVec S_ 1 := constantI S_ 1 1#1
  let main_v12 : IVec S_ 1 := (fun x v => Host.reduce IntOp.andi x v reducesTo_S832x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x64 : Shape := ⟨2, ![100000, 64]⟩
abbrev S2x200000 : Shape := ⟨2, ![2, 200000]⟩
abbrev S200000x768 : Shape := ⟨2, ![200000, 768]⟩
abbrev S832x128 : Shape := ⟨2, ![832, 128]⟩
abbrev S128 : Shape := ⟨1, ![128]⟩
abbrev S128x5 : Shape := ⟨2, ![128, 5]⟩
abbrev S5 : Shape := ⟨1, ![5]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x64 : Shape := ⟨2, ![200000, 64]⟩
abbrev S64x128 : Shape := ⟨2, ![64, 128]⟩
abbrev S768x128 : Shape := ⟨2, ![768, 128]⟩
abbrev S1x128 : Shape := ⟨2, ![1, 128]⟩
abbrev S1x5 : Shape := ⟨2, ![1, 5]⟩
abbrev S200000x5 : Shape := ⟨2, ![200000, 5]⟩
abbrev S2000x64 : Shape := ⟨2, ![2000, 64]⟩
abbrev S2000x768 : Shape := ⟨2, ![2000, 768]⟩
abbrev S2000x5 : Shape := ⟨2, ![2000, 5]⟩
abbrev S2000x128 : Shape := ⟨2, ![2000, 128]⟩
abbrev S2000 : Shape := ⟨1, ![2000]⟩
abbrev S2000x1 : Shape := ⟨2, ![2000, 1]⟩

abbrev nBuf : Space → Nat
  | .hbm => 35
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x200000, .i32⟩
  | .hbm, ⟨2, _⟩ => ⟨S200000x768, .f32⟩
  | .hbm, ⟨3, _⟩ => ⟨S832x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S1x200000, .i32⟩
  | .hbm, ⟨8, _⟩ => ⟨S200000, .i32⟩
  | .hbm, ⟨9, _⟩ => ⟨S1x200000, .i32⟩
  | .hbm, ⟨10, _⟩ => ⟨S200000, .i32⟩
  | .hbm, ⟨11, _⟩ => ⟨S_, .i32⟩
  | .hbm, ⟨12, _⟩ => ⟨S200000, .i32⟩
  | .hbm, ⟨13, _⟩ => ⟨S200000, .i1⟩
  | .hbm, ⟨14, _⟩ => ⟨S_, .i32⟩
  | .hbm, ⟨15, _⟩ => ⟨S200000, .i32⟩
  | .hbm, ⟨16, _⟩ => ⟨S200000, .i32⟩
  | .hbm, ⟨17, _⟩ => ⟨S200000, .i32⟩
  | .hbm, ⟨18, _⟩ => ⟨S200000x1, .i32⟩
  | .hbm, ⟨19, _⟩ => ⟨S200000x64, .f32⟩
  | .hbm, ⟨20, _⟩ => ⟨S_, .i32⟩
  | .hbm, ⟨21, _⟩ => ⟨S200000, .i32⟩
  | .hbm, ⟨22, _⟩ => ⟨S200000, .i1⟩
  | .hbm, ⟨23, _⟩ => ⟨S_, .i32⟩
  | .hbm, ⟨24, _⟩ => ⟨S200000, .i32⟩
  | .hbm, ⟨25, _⟩ => ⟨S200000, .i32⟩
  | .hbm, ⟨26, _⟩ => ⟨S200000, .i32⟩
  | .hbm, ⟨27, _⟩ => ⟨S200000x1, .i32⟩
  | .hbm, ⟨28, _⟩ => ⟨S200000x64, .f32⟩
  | .hbm, ⟨29, _⟩ => ⟨S200000x64, .f32⟩
  | .hbm, ⟨30, _⟩ => ⟨S64x128, .f32⟩
  | .hbm, ⟨31, _⟩ => ⟨S768x128, .f32⟩
  | .hbm, ⟨32, _⟩ => ⟨S1x128, .f32⟩
  | .hbm, ⟨33, _⟩ => ⟨S1x5, .f32⟩
  | .hbm, ⟨34, _⟩ => ⟨S200000x5, .f32⟩
  | .local _ .vmem, ⟨0, _⟩ => ⟨S2000x64, .f32⟩
  | .local _ .vmem, ⟨1, _⟩ => ⟨S2000x64, .f32⟩
  | .local _ .vmem, ⟨2, _⟩ => ⟨S2000x768, .f32⟩
  | .local _ .vmem, ⟨3, _⟩ => ⟨S2000x768, .f32⟩
  | .local _ .vmem, ⟨4, _⟩ => ⟨S64x128, .f32⟩
  | .local _ .vmem, ⟨5, _⟩ => ⟨S768x128, .f32⟩
  | .local _ .vmem, ⟨6, _⟩ => ⟨S1x128, .f32⟩
  | .local _ .vmem, ⟨7, _⟩ => ⟨S128x5, .f32⟩
  | .local _ .vmem, ⟨8, _⟩ => ⟨S1x5, .f32⟩
  | .local _ .vmem, ⟨9, _⟩ => ⟨S2000x5, .f32⟩
  | .local _ .vmem, ⟨10, _⟩ => ⟨S2000x5, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S832x128_S64x128_0_0 : S832x128.Slices ![0, 0] S64x128
  slices_S832x128_S768x128_64_0 : S832x128.Slices ![64, 0] S768x128
  shapeCasts_S128_S1x128 : S128.ShapeCasts S1x128
  shapeCasts_S5_S1x5 : S5.ShapeCasts S1x5
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S2000x768_S2000x768_0_0 : ∀ a, (![0, 0] : Fin 2 → Nat) a + S2000x768.size a ≤ S2000x768.size a
  h_S2000x768 : 0 < S2000x768.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x5_S128x5_0_0 : ∀ a, (![0, 0] : Fin 2 → Nat) a + S128x5.size a ≤ S128x5.size a
  h_S128x5 : 0 < S128x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S2000x5 : S1x5.Broadcasts S2000x5
  reduces_S2000x5_S2000 : S2000x5.Reduces [1] S2000
  shapeCasts_S2000_S2000x1 : S2000.ShapeCasts S2000x1
  broadcasts_S2000x1_S2000x5 : S2000x1.Broadcasts S2000x5
  inb_S2000x5_S2000x5_0_0 : ∀ a, (![0, 0] : Fin 2 → Nat) a + S2000x5.size a ≤ S2000x5.size a
  h_S2000x5 : 0 < S2000x5.numel
  gather_S100000x64_S200000x1_S200000x64_1_0_n_n_0_1_164_wf : GatherDims.WF S100000x64 S200000x1 S200000x64 [1] [0] [] [0] [] 1 ![1, 64]
  dot_S2000x64_S64x128_S2000x128_1_0_0_1_n_n_wf : DotDims.WF S2000x64 S64x128 S2000x128 [1] [0] [0] [1] [] []
  dot_S2000x768_S768x128_S2000x128_1_0_0_1_n_n_wf : DotDims.WF S2000x768 S768x128 S2000x128 [1] [0] [0] [1] [] []
  dot_S2000x128_S128x5_S2000x5_1_0_0_1_n_n_wf : DotDims.WF S2000x128 S128x5 S2000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S200000x64.size a
  hwx0_0 : ∀ i : grid0.Coords, EltTy.bits .f32 = 32 ∨ (Rect.block (s := S200000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x768.size a ≤ S200000x768.size a
  hwx0_1 : ∀ i : grid0.Coords, EltTy.bits .f32 = 32 ∨ (Rect.block (s := S200000x768) S2000x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x128.size a ≤ S768x128.size a
  hwx0_3 : ∀ i : grid0.Coords, EltTy.bits .f32 = 32 ∨ (Rect.block (s := S768x128) S768x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x5.size a ≤ S128x5.size a
  hwx0_5 : ∀ i : grid0.Coords, EltTy.bits .f32 = 32 ∨ (Rect.block (s := S128x5) S128x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x5.size a ≤ S1x5.size a
  hwx0_6 : ∀ i : grid0.Coords, EltTy.bits .f32 = 32 ∨ (Rect.block (s := S1x5) S1x5.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x5.size a ≤ S200000x5.size a
  hwx0_7 : ∀ i : grid0.Coords, EltTy.bits .f32 = 32 ∨ (Rect.block (s := S200000x5) S2000x5.size (cc0_transform_7 i) (hinb0_7 i)).WholeWords (EltTy.packing .f32)

variable [Facts₀]

def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def dot_S2000x128_S128x5_S2000x5_1_0_0_1_n_n : DotDims S2000x128 S128x5 S2000x5 where
  lhsContracting := [1]
  rhsContracting := [0]
  lhsNonContracting := [0]
  rhsNonContracting := [1]
  lhsBatch := []
  rhsBatch := []
  wf := dot_S2000x128_S128x5_S2000x5_1_0_0_1_n_n_wf

abbrev win0_0 : Pipeline.Window sig grid0 :=
  Pipeline.Window.ofSpec (Memref.whole main_v18) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S768x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S2000x5.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x200000 : Shape := ⟨2, ![2, 200000]⟩
abbrev S200000x768 : Shape := ⟨2, ![200000, 768]⟩
abbrev S832x128 : Shape := ⟨2, ![832, 128]⟩
abbrev S128 : Shape := ⟨1, ![128]⟩
abbrev S128x5 : Shape := ⟨2, ![128, 5]⟩
abbrev S5 : Shape := ⟨1, ![5]⟩
abbrev S1x200000 : Shape := ⟨2, ![1, 200000]⟩
abbrev S200000 : Shape := ⟨1, ![200000]⟩
abbrev S_ : Shape := ⟨0, ![]⟩
abbrev S200000x1 : Shape := ⟨2, ![200000, 1]⟩
abbrev S200000x64 : Shape := ⟨2, ![200000, 64]⟩
abbrev S200000x832 : Shape := ⟨2, ![200000, 832]⟩
abbrev S200000x128 : Shape := ⟨2, ![200000, 128]⟩
abbrev S1x128 : Shape := ⟨2, ![1, 128]⟩
abbrev S200000x5 : Shape := ⟨2, ![200000, 5]⟩
abbrev S1x5 : Shape := ⟨2, ![1, 5]⟩

abbrev nBuf : Space → Nat
  | .hbm => 56
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x200000, .i32⟩
  | .hbm, ⟨2, _⟩ => ⟨S200000x768, .f32⟩
  | .hbm, ⟨3, _⟩ => ⟨S832x128, .f32⟩
  | .hbm, ⟨4, _⟩ => ⟨S128, .f32⟩
  | .hbm, ⟨5, _⟩ => ⟨S128x5, .f32⟩
  | .hbm, ⟨6, _⟩ => ⟨S5, .f32⟩
  | .hbm, ⟨7, _⟩ => ⟨S1x200000, .i32⟩
  | .hbm, ⟨8, _⟩ => ⟨S200000, .i32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S200000x1, .i32⟩
  | .hbm, ⟨17, _⟩ => ⟨S200000x64, .f32⟩
  | .hbm, ⟨18, _⟩ => ⟨S1x200000, .i32⟩
  | .hbm, ⟨19, _⟩ => ⟨S200000, .i32⟩
  | .hbm, ⟨20, _⟩ => ⟨S_, .i32⟩
  | .hbm, ⟨21, _⟩ => ⟨S200000, .i32⟩
  | .hbm, ⟨22, _⟩ => ⟨S200000, .i1⟩
  | .hbm, ⟨23, _⟩ => ⟨S_, .i32⟩
  | .hbm, ⟨24, _⟩ => ⟨S200000, .i32⟩
  | .hbm, ⟨25, _⟩ => ⟨S200000, .i32⟩
  | .hbm, ⟨26, _⟩ => ⟨S200000, .i32⟩
  | .hbm, ⟨27, _⟩ => ⟨S200000x1, .i32⟩
  | .hbm, ⟨28, _⟩ => ⟨S200000x64, .f32⟩
  | .hbm, ⟨29, _⟩ => ⟨S200000x64, .f32⟩
  | .hbm, ⟨30, _⟩ => ⟨S200000x832, .f32⟩
  | .hbm, ⟨31, _⟩ => ⟨S200000x128, .f32⟩
  | .hbm, ⟨32, _⟩ => ⟨S1x128, .f32⟩
  | .hbm, ⟨33, _⟩ => ⟨S200000x128, .f32⟩
  | .hbm, ⟨34, _⟩ => ⟨S200000x128, .f32⟩
  | .hbm, ⟨35, _⟩ => ⟨S_, .f32⟩
  | .hbm, ⟨36, _⟩ => ⟨S200000x128, .f32⟩
  | .hbm, ⟨37, _⟩ => ⟨S200000x128, .f32⟩
  | .hbm, ⟨38, _⟩ => ⟨S200000x5, .f32⟩
  | .hbm, ⟨39, _⟩ => ⟨S1x5, .f32⟩
  | .hbm, ⟨40, _⟩ => ⟨S200000x5, .f32⟩
  | .hbm, ⟨41, _⟩ => ⟨S200000x5, .f32⟩
  | .hbm, ⟨42, _⟩ => ⟨S_, .f32⟩
  | .hbm, ⟨43, _⟩ => ⟨S200000, .f32⟩
  | .hbm, ⟨44, _⟩ => ⟨S_, .f32⟩
  | .hbm, ⟨45, _⟩ => ⟨S200000, .f32⟩
  | .hbm, ⟨46, _⟩ => ⟨S200000, .f32⟩
  | .hbm, ⟨47, _⟩ => ⟨S200000x1, .f32⟩
  | .hbm, ⟨48, _⟩ => ⟨S200000x5, .f32⟩
  | .hbm, ⟨49, _⟩ => ⟨S200000x5, .f32⟩
  | .hbm, ⟨50, _⟩ => ⟨S200000x5, .f32⟩
  | .hbm, ⟨51, _⟩ => ⟨S_, .f32⟩
  | .hbm, ⟨52, _⟩ => ⟨S200000, .f32⟩
  | .hbm, ⟨53, _⟩ => ⟨S200000x1, .f32⟩
  | .hbm, ⟨54, _⟩ => ⟨S200000x5, .f32⟩
  | .hbm, ⟨55, _⟩ => ⟨S200000x5, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x64_S200000x768_S200000x832_d1 : Shape.Concatenates [S200000x64, S200000x768] S200000x832 1
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S5_S1x5_1 : S5.BroadcastsInDim S1x5 (![1] : Fin 1 → Fin S1x5.rank)
  bcast_S1x5_S200000x5_0_1 : S1x5.BroadcastsInDim S200000x5 (![0, 1] : Fin 2 → Fin S200000x5.rank)
  reducesTo_S200000x5_S200000_d1 : S200000x5.ReducesTo [1] S200000
  h_S_ : 0 < S_.numel
  bcast_S200000x1_S200000x5_0_1 : S200000x1.BroadcastsInDim S200000x5 (![0, 1] : Fin 2 → Fin S200000x5.rank)
  gather_S100000x64_S200000x1_S200000x64_1_0_n_n_0_1_164_wf : GatherDims.WF S100000x64 S200000x1 S200000x64 [1] [0] [] [0] [] 1 ![1, 64]
  dot_S200000x832_S832x128_S200000x128_1_0_0_1_n_n_wf : DotDims.WF S200000x832 S832x128 S200000x128 [1] [0] [0] [1] [] []
  dot_S200000x128_S128x5_S200000x5_1_0_0_1_n_n_wf : DotDims.WF S200000x128 S128x5 S200000x5 [1] [0] [0] [1] [] []

variable [Facts₀]

def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x832_S832x128_S200000x128_1_0_0_1_n_n : DotDims S200000x832 S832x128 S200000x128 where
  lhsContracting := [1]
  rhsContracting := [0]
  lhsNonContracting := [0]
  rhsNonContracting := [1]
  lhsBatch := []
  rhsBatch := []
  wf := dot_S200000x832_S832x128_S200000x128_1_0_0_1_n_n_wf
def dot_S200000x128_S128x5_S200000x5_1_0_0_1_n_n : DotDims S200000x128 S128x5 S200000x5 where
  lhsContracting := [1]
  rhsContracting := [0]
  lhsNonContracting := [0]
  rhsNonContracting := [1]
  lhsBatch := []
  rhsBatch := []
  wf := dot_S200000x128_S128x5_S200000x5_1_0_0_1_n_n_wf

class Facts : Prop extends Facts₀ where

variable [Facts]
-- ==== Proof.RowMlp.lean ====
/-
  One edge's row of the decoder, as a function over the extended reals.

  An edge carries a node representation `nr` (64 numbers: the elementwise product of its two endpoint embeddings)
  and an attribute row `ea` (768 numbers). The decoder is a two-layer perceptron followed by a softmax over 5 classes:

    hiddenAct j = max (Σ_k nr k · Wa k j + Σ_k ea k · Wb k j + b1 j) 0        (128 hidden units)
    logit c  = Σ_j hiddenAct j · W2 j c + b2 c                                  (5 classes)
    out c    = exp (logit c − M) / Σ_c' exp (logit c' − M),   M = max over the classes of logit

  where `Wa` are the first 64 rows and `Wb` the remaining 768 rows of ONE 832-row first-layer weight matrix. Written
  with the two partial sums apart, this is the form in which a block of 2000 edges is computed; `sum_lo_hi` and
  `sum_joint` say that the sum over all 832 joint features `nr ++ ea` against the whole matrix is the same number,
  which needs only that addition of extended reals is commutative and associative (no finiteness).
  The maximum is folded from the f32 word of −∞, kept as that word: it is never evaluated.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.EdgeMlp

/-- Joint feature `k < 64`: a node-representation feature. -/
def lo (k : Fin 64) : Fin 832 := ⟨k.val, by have := k.isLt; omega⟩
/-- Joint feature `64 + k`: an edge-attribute feature. -/
def hi (k : Fin 768) : Fin 832 := ⟨64 + k.val, by have := k.isLt; omega⟩

/-- A sum over the 832 joint features is the sum over the first 64 plus the sum over the last 768. -/
theorem sum_lo_hi {M : Type*} [AddCommMonoid M] (f : Fin 832 → M) :
    ∑ k : Fin 832, f k = ∑ k : Fin 64, f (lo k) + ∑ k : Fin 768, f (hi k) :=
  Fin.sum_univ_add (a := 64) (b := 768) f

/-- So the joint features' product with one column of the weight matrix splits into the two partial products,
    once the joint row is known to be `nr` on the first 64 features and `ea` on the rest. -/
theorem sum_joint (joint : Fin 832 → EReal) (w : Fin 832 → EReal) (nr : Fin 64 → EReal) (ea : Fin 768 → EReal)
    (hlo : ∀ k, joint (lo k) = nr k) (hhi : ∀ k, joint (hi k) = ea k) :
    ∑ k : Fin 832, joint k * w k = (∑ k : Fin 64, nr k * w (lo k)) + (∑ k : Fin 768, ea k * w (hi k)) := by
  rw [sum_lo_hi]
  simp only [hlo, hhi]

/-- The f32 word of −∞ at the ideal values, kept as the word. -/
abbrev negInf : EReal := Ideal.ofBits .f32 0xFF800000#32

section Row

variable (nr : Fin 64 → EReal) (ea : Fin 768 → EReal) (Wa : Fin 64 → Fin 128 → EReal) (Wb : Fin 768 → Fin 128 → EReal)
  (b1 : Fin 128 → EReal) (W2 : Fin 128 → Fin 5 → EReal) (b2 : Fin 5 → EReal)

/-- Hidden unit `j`: the two partial products added, the bias added, clipped at zero. -/
def hiddenAct (j : Fin 128) : EReal :=
  max (((∑ k : Fin 64, nr k * Wa k j) + (∑ k : Fin 768, ea k * Wb k j)) + b1 j) 0

/-- Class `c`'s logit. -/
def logit (c : Fin 5) : EReal :=
  (∑ j : Fin 128, hiddenAct nr ea Wa Wb b1 j * W2 j c) + b2 c

/-- The row's largest logit, folded from −∞ (and once more against −∞, as the softmax is printed). -/
def rowMax : EReal :=
  max negInf ((Finset.univ : Finset (Fin 5)).fold max negInf (logit nr ea Wa Wb b1 W2 b2))

/-- The shifted exponential of class `c`. -/
def expShift (c : Fin 5) : EReal :=
  Ideal.exp (logit nr ea Wa Wb b1 W2 b2 c - rowMax nr ea Wa Wb b1 W2 b2)

/-- The row's softmax at class `c`. -/
def softmaxRow (c : Fin 5) : EReal :=
  Ideal.div (expShift nr ea Wa Wb b1 W2 b2 c) (∑ c' : Fin 5, expShift nr ea Wa Wb b1 W2 b2 c')

end Row

/-- THE RESULT ARRAY as one function of the node representations [200000, 64], the edge attributes [200000, 768]
    and the four parameter arrays: row `e` is the softmax row of edge `e`, the first-layer weight's rows taken
    64 + 768. -/
def G (nr : (⟨2, ![200000, 64]⟩ : Shape).Idx → EReal) (ea : (⟨2, ![200000, 768]⟩ : Shape).Idx → EReal)
    (W1 : (⟨2, ![832, 128]⟩ : Shape).Idx → EReal) (b1 : (⟨1, ![128]⟩ : Shape).Idx → EReal)
    (W2 : (⟨2, ![128, 5]⟩ : Shape).Idx → EReal) (b2 : (⟨1, ![5]⟩ : Shape).Idx → EReal) :
    (⟨2, ![200000, 5]⟩ : Shape).Idx → EReal :=
  fun i => softmaxRow (fun k => nr (ix2 (i 0 : Fin 200000) k)) (fun k => ea (ix2 (i 0 : Fin 200000) k))
    (fun k j => W1 (ix2 (lo k) j)) (fun k j => W1 (ix2 (hi k) j)) (fun j => b1 (ix1 j))
    (fun j c => W2 (ix2 j c)) (fun c => b2 (ix1 c)) (i 1 : Fin 5)

end Cert.EdgeMlp

end
-- ==== Proof.KernelRow.lean ====
/-
  What one grid point leaves in its output block, read at an index.

  A grid point holds 2000 edges: a block `x0` [2000, 64] of node representations, a block `x1` [2000, 768] of edge
  attributes, and the whole parameter arrays `x2` [64, 128] and `x3` [768, 128] (the first-layer weight's first 64 and
  last 768 rows), `x4` [1, 128], `x5` [128, 5], `x6` [1, 5]. Its body's stored value, at row `r` and class `c` of the
  block, is the softmax row (RowMlp.lean) of edge `r`'s inputs at class `c`: each of the three block products is a sum
  over its one contracted coordinate; the row's maximum and the row's sum are a fold and a sum over the five classes;
  changes of float format are the identity on the extended reals; the biases are one row broadcast down the block, and
  the row's maximum and sum one column broadcast across it.
-/
import proofs.«115188_j84129819394297_1_alg».proof.Proof.Gen.KernelIdeal.Skeleton
import proofs.«115188_j84129819394297_1_alg».proof.Proof.RowMlp
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.EdgeMlp

/-! ## The three block products at an index -/

theorem lhs_dotA_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs_dotA_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhs_dotA_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhs_dotA_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The node-representation block times the first 64 weight rows, at row `r` and hidden unit `j`: the sum over the 64
    features. -/
theorem dotA_apply (a : FVec Ideal S2000x64 .bf16) (w : FVec Ideal S64x128 .bf16) (r : Fin 2000) (j : Fin 128) :
    matmul dot_S2000x64_S64x128_S2000x128_1_0_0_1_n_n none a w (constant S2000x128 .f32 0x00000000#32) (ix2 r j)
      = ∑ k : Fin 64, a (ix2 r k) * w (ix2 k j) := by
  simp only [matmul]
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 r j) ((ValueIdx.contrEquiv1 dot_S2000x64_S64x128_S2000x128_1_0_0_1_n_n 64 rfl rfl).symm k) = ix2 r k := funext fun a => Fin.ext (by
    match a with
    | ⟨0, _⟩ => exact lhs_dotA_0 _ _
    | ⟨1, _⟩ => exact (lhs_dotA_1 _ _).trans hk)
  have er : dot_S2000x64_S64x128_S2000x128_1_0_0_1_n_n.rhsIdx (ix2 r j) ((ValueIdx.contrEquiv1 dot_S2000x64_S64x128_S2000x128_1_0_0_1_n_n 64 rfl rfl).symm k) = ix2 k j := funext fun a => Fin.ext (by
    match a with
    | ⟨0, _⟩ => exact (rhs_dotA_0 _ _).trans hk
    | ⟨1, _⟩ => exact rhs_dotA_1 _ _)
  rw [el, er]

theorem lhs_dotB_0 (i : S2000x128.Idx) (q : dot_S2000x768_S768x128_S2000x128_1_0_0_1_n_n.contr.Idx) :
    (dot_S2000x768_S768x128_S2000x128_1_0_0_1_n_n.lhsIdx i q 0).val = (i 0).val := by
  unfold DotDims.lhsIdx
  rw [dif_neg (show ¬(0 : Fin S2000x768.rank) ∈ dot_S2000x768_S768x128_S2000x128_1_0_0_1_n_n.lhsBatch by decide), dif_pos (show (0 : Fin S2000x768.rank) ∈ dot_S2000x768_S768x128_S2000x128_1_0_0_1_n_n.lhsNonContracting by decide)]
  rfl
theorem lhs_dotB_1 (i : S2000x128.Idx) (q : dot_S2000x768_S768x128_S2000x128_1_0_0_1_n_n.contr.Idx) :
    (dot_S2000x768_S768x128_S2000x128_1_0_0_1_n_n.lhsIdx i q 1).val = (q ⟨0, by decide⟩).val :=
  dot_S2000x768_S768x128_S2000x128_1_0_0_1_n_n.lhsIdx_val_of_single rfl i q
theorem rhs_dotB_0 (i : S2000x128.Idx) (q : dot_S2000x768_S768x128_S2000x128_1_0_0_1_n_n.contr.Idx) :
    (dot_S2000x768_S768x128_S2000x128_1_0_0_1_n_n.rhsIdx i q 0).val = (q ⟨0, by decide⟩).val :=
  dot_S2000x768_S768x128_S2000x128_1_0_0_1_n_n.rhsIdx_val_of_single rfl i q
theorem rhs_dotB_1 (i : S2000x128.Idx) (q : dot_S2000x768_S768x128_S2000x128_1_0_0_1_n_n.contr.Idx) :
    (dot_S2000x768_S768x128_S2000x128_1_0_0_1_n_n.rhsIdx i q 1).val = (i 1).val := by
  unfold DotDims.rhsIdx
  rw [dif_neg (show ¬(1 : Fin S768x128.rank) ∈ dot_S2000x768_S768x128_S2000x128_1_0_0_1_n_n.rhsBatch by decide), dif_pos (show (1 : Fin S768x128.rank) ∈ dot_S2000x768_S768x128_S2000x128_1_0_0_1_n_n.rhsNonContracting by decide)]
  rfl

/-- The edge-attribute block times the last 768 weight rows, at row `r` and hidden unit `j`: the sum over the 768
    features. -/
theorem dotB_apply (a : FVec Ideal S2000x768 .bf16) (w : FVec Ideal S768x128 .bf16) (r : Fin 2000) (j : Fin 128) :
    matmul dot_S2000x768_S768x128_S2000x128_1_0_0_1_n_n none a w (constant S2000x128 .f32 0x00000000#32) (ix2 r j)
      = ∑ k : Fin 768, a (ix2 r k) * w (ix2 k j) := by
  simp only [matmul]
  rw [Ideal.matmul_constant_zero_apply, ← Equiv.sum_comp (ValueIdx.contrEquiv1 dot_S2000x768_S768x128_S2000x128_1_0_0_1_n_n 768 rfl rfl).symm]
  refine Finset.sum_congr rfl fun k _ => ?_
  have hk := ValueIdx.contrEquiv1_symm_val dot_S2000x768_S768x128_S2000x128_1_0_0_1_n_n 768 rfl rfl k
  have el : dot_S2000x768_S768x128_S2000x128_1_0_0_1_n_n.lhsIdx (ix2 r j) ((ValueIdx.contrEquiv1 dot_S2000x768_S768x128_S2000x128_1_0_0_1_n_n 768 rfl rfl).symm k) = ix2 r k := funext fun a => Fin.ext (by
    match a with
    | ⟨0, _⟩ => exact lhs_dotB_0 _ _
    | ⟨1, _⟩ => exact (lhs_dotB_1 _ _).trans hk)
  have er : dot_S2000x768_S768x128_S2000x128_1_0_0_1_n_n.rhsIdx (ix2 r j) ((ValueIdx.contrEquiv1 dot_S2000x768_S768x128_S2000x128_1_0_0_1_n_n 768 rfl rfl).symm k) = ix2 k j := funext fun a => Fin.ext (by
    match a with
    | ⟨0, _⟩ => exact (rhs_dotB_0 _ _).trans hk
    | ⟨1, _⟩ => exact rhs_dotB_1 _ _)
  rw [el, er]

theorem lhs_dotC_0 (i : S2000x5.Idx) (q : dot_S2000x128_S128x5_S2000x5_1_0_0_1_n_n.contr.Idx) :
    (dot_S2000x128_S128x5_S2000x5_1_0_0_1_n_n.lhsIdx i q 0).val = (i 0).val := by
  unfold DotDims.lhsIdx
  rw [dif_neg (show ¬(0 : Fin S2000x128.rank) ∈ dot_S2000x128_S128x5_S2000x5_1_0_0_1_n_n.lhsBatch by decide), dif_pos (show (0 : Fin S2000x128.rank) ∈ dot_S2000x128_S128x5_S2000x5_1_0_0_1_n_n.lhsNonContracting by decide)]
  rfl
theorem lhs_dotC_1 (i : S2000x5.Idx) (q : dot_S2000x128_S128x5_S2000x5_1_0_0_1_n_n.contr.Idx) :
    (dot_S2000x128_S128x5_S2000x5_1_0_0_1_n_n.lhsIdx i q 1).val = (q ⟨0, by decide⟩).val :=
  dot_S2000x128_S128x5_S2000x5_1_0_0_1_n_n.lhsIdx_val_of_single rfl i q
theorem rhs_dotC_0 (i : S2000x5.Idx) (q : dot_S2000x128_S128x5_S2000x5_1_0_0_1_n_n.contr.Idx) :
    (dot_S2000x128_S128x5_S2000x5_1_0_0_1_n_n.rhsIdx i q 0).val = (q ⟨0, by decide⟩).val :=
  dot_S2000x128_S128x5_S2000x5_1_0_0_1_n_n.rhsIdx_val_of_single rfl i q
theorem rhs_dotC_1 (i : S2000x5.Idx) (q : dot_S2000x128_S128x5_S2000x5_1_0_0_1_n_n.contr.Idx) :
    (dot_S2000x128_S128x5_S2000x5_1_0_0_1_n_n.rhsIdx i q 1).val = (i 1).val := by
  unfold DotDims.rhsIdx
  rw [dif_neg (show ¬(1 : Fin S128x5.rank) ∈ dot_S2000x128_S128x5_S2000x5_1_0_0_1_n_n.rhsBatch by decide), dif_pos (show (1 : Fin S128x5.rank) ∈ dot_S2000x128_S128x5_S2000x5_1_0_0_1_n_n.rhsNonContracting by decide)]
  rfl

/-- The hidden block times the second-layer weight, at row `r` and class `c`: the sum over the 128 hidden units. -/
theorem dotC_apply (a : FVec Ideal S2000x128 .bf16) (w : FVec Ideal S128x5 .bf16) (r : Fin 2000) (c : Fin 5) :
    matmul dot_S2000x128_S128x5_S2000x5_1_0_0_1_n_n none a w (constant S2000x5 .f32 0x00000000#32) (ix2 r c)
      = ∑ j : Fin 128, a (ix2 r j) * w (ix2 j c) := by
  simp only [matmul]
  rw [Ideal.matmul_constant_zero_apply, ← Equiv.sum_comp (ValueIdx.contrEquiv1 dot_S2000x128_S128x5_S2000x5_1_0_0_1_n_n 128 rfl rfl).symm]
  refine Finset.sum_congr rfl fun k _ => ?_
  have hk := ValueIdx.contrEquiv1_symm_val dot_S2000x128_S128x5_S2000x5_1_0_0_1_n_n 128 rfl rfl k
  have el : dot_S2000x128_S128x5_S2000x5_1_0_0_1_n_n.lhsIdx (ix2 r c) ((ValueIdx.contrEquiv1 dot_S2000x128_S128x5_S2000x5_1_0_0_1_n_n 128 rfl rfl).symm k) = ix2 r k := funext fun a => Fin.ext (by
    match a with
    | ⟨0, _⟩ => exact lhs_dotC_0 _ _
    | ⟨1, _⟩ => exact (lhs_dotC_1 _ _).trans hk)
  have er : dot_S2000x128_S128x5_S2000x5_1_0_0_1_n_n.rhsIdx (ix2 r c) ((ValueIdx.contrEquiv1 dot_S2000x128_S128x5_S2000x5_1_0_0_1_n_n 128 rfl rfl).symm k) = ix2 k c := funext fun a => Fin.ext (by
    match a with
    | ⟨0, _⟩ => exact (rhs_dotC_0 _ _).trans hk
    | ⟨1, _⟩ => exact rhs_dotC_1 _ _)
  rw [el, er]

/-! ## The row reductions and the column broadcast at an index -/

/-- The row maximum over the five classes, folded from the word of −∞. -/
theorem rowmax_apply (v : FVec Ideal S2000x5 .f32) (r : Fin 2000) :
    multiReduction .maximumf [1] S2000 v 0xFF800000#32 reduces_S2000x5_S2000 (.inl rfl) rfl (ix1 r)
      = (Finset.univ : Finset (Fin 5)).fold max negInf (fun c => v (ix2 r c)) := by
  refine (Ideal.multiReduction_maximumf_single v 0xFF800000#32 reduces_S2000x5_S2000 (.inl rfl) rfl (ix1 r)).trans ?_
  refine congrArg (fun f : Fin 5 → EReal => (Finset.univ : Finset (Fin 5)).fold max negInf f) (funext fun c => congrArg v ?_)
  funext a
  apply Fin.ext
  match a with
  | ⟨0, _⟩ => rfl
  | ⟨1, _⟩ => rfl

/-- The row sum over the five classes. -/
theorem rowsum_apply (v : FVec Ideal S2000x5 .f32) (r : Fin 2000) :
    multiReduction .add [1] S2000 v 0x00000000#32 reduces_S2000x5_S2000 (.inl rfl) rfl (ix1 r)
      = ∑ c : Fin 5, v (ix2 r c) := by
  refine (Ideal.multiReduction_add_single v 0x00000000#32 reduces_S2000x5_S2000 (.inl rfl) rfl (ix1 r)).trans ?_
  refine Finset.sum_congr rfl fun c _ => congrArg v ?_
  funext a
  apply Fin.ext
  match a with
  | ⟨0, _⟩ => rfl
  | ⟨1, _⟩ => rfl

/-- A per-row value [2000], stood up as a column [2000, 1] and broadcast across the five classes, reads the row's value. -/
theorem col_apply (v : FVec Ideal S2000 .f32) (r : Fin 2000) (c : Fin 5) :
    broadcastTo S2000x5 (shapeCast S2000x1 v shapeCasts_S2000_S2000x1) broadcasts_S2000x1_S2000x5 (ix2 r c) = v (ix1 r) := by
  refine (broadcastTo_apply _ _ (ix2 r c) (ix2 r (0 : Fin 1)) (fun a => match a with
    | ⟨0, _⟩ => by show r.val = (if (2000 : Nat) = 1 then 0 else r.val); rw [if_neg (by decide)]
    | ⟨1, _⟩ => by show 0 = (if (1 : Nat) = 1 then 0 else c.val); rw [if_pos rfl])).trans ?_
  exact shapeCast_apply _ _ (ix2 r (0 : Fin 1)) (ix1 r) (by
    rw [Shape.rowMajor_val_one, Shape.rowMajor_val_two]; show r.val = r.val * 1 + 0; omega)

/-! ## The body's value, stage by stage -/

section Body

variable (x0 : Vec Ideal S2000x64 .f32) (x1 : Vec Ideal S2000x768 .f32) (x2 : Vec Ideal S64x128 .f32)
  (x3 : Vec Ideal S768x128 .f32) (x4 : Vec Ideal S1x128 .f32) (x5 : Vec Ideal S128x5 .f32) (x6 : Vec Ideal S1x5 .f32)

/-- The block's hidden activations [2000, 128]: the two block products added, the bias row added, clipped at zero. -/
def hidV : FVec Ideal S2000x128 .f32 :=
  maximumf
    (addf
      (addf
        (matmul dot_S2000x64_S64x128_S2000x128_1_0_0_1_n_n none
          (truncf .bf16 (shapeCast S2000x64 x0 shapeCasts_S2000x64_S2000x64 : FVec Ideal S2000x64 .f32) bitsLt_bf16_f32)
          (truncf .bf16 (shapeCast S64x128 x2 shapeCasts_S64x128_S64x128 : FVec Ideal S64x128 .f32) bitsLt_bf16_f32)
          (constant S2000x128 .f32 0x00000000#32))
        (matmul dot_S2000x768_S768x128_S2000x128_1_0_0_1_n_n none
          (truncf .bf16 (x1 : FVec Ideal S2000x768 .f32) bitsLt_bf16_f32)
          (truncf .bf16 (shapeCast S768x128 x3 shapeCasts_S768x128_S768x128 : FVec Ideal S768x128 .f32) bitsLt_bf16_f32)
          (constant S2000x128 .f32 0x00000000#32)))
      (broadcastTo S2000x128 (shapeCast S1x128 x4 shapeCasts_S1x128_S1x128 : FVec Ideal S1x128 .f32) broadcasts_S1x128_S2000x128))
    (broadcast S2000x128 (Scalar.ofBits (F := Ideal) .f32 0x00000000#32))

/-- The block's logits [2000, 5]: the hidden block times the second-layer weight, the bias row added. -/
def logitV : FVec Ideal S2000x5 .f32 :=
  addf
    (matmul dot_S2000x128_S128x5_S2000x5_1_0_0_1_n_n none
      (truncf .bf16 (hidV x0 x1 x2 x3 x4) bitsLt_bf16_f32)
      (truncf .bf16 (x5 : FVec Ideal S128x5 .f32) bitsLt_bf16_f32)
      (constant S2000x5 .f32 0x00000000#32))
    (broadcastTo S2000x5 (shapeCast S1x5 x6 shapeCasts_S1x5_S1x5 : FVec Ideal S1x5 .f32) broadcasts_S1x5_S2000x5)

/-- The body's shifted exponentials are the exponential of the logits less each row's maximum. -/
theorem pay2_eq : k0_pay2 (F := Ideal) x0 x1 x2 x3 x4 x5 x6
    = exp (subf (logitV x0 x1 x2 x3 x4 x5 x6)
        (broadcastTo S2000x5 (shapeCast S2000x1
          (maximumf (broadcast S2000 (Scalar.ofBits (F := Ideal) .f32 0xFF800000#32))
            (multiReduction .maximumf [1] S2000 (logitV x0 x1 x2 x3 x4 x5 x6) 0xFF800000#32 reduces_S2000x5_S2000 (.inl rfl) rfl))
          shapeCasts_S2000_S2000x1) broadcasts_S2000x1_S2000x5)) := rfl

/-- Hidden unit `j` of block row `r`. -/
theorem hidV_apply (r : Fin 2000) (j : Fin 128) :
    hidV x0 x1 x2 x3 x4 (ix2 r j)
      = hiddenAct (fun k => x0 (ix2 r k)) (fun k => x1 (ix2 r k)) (fun k j => x2 (ix2 k j)) (fun k j => x3 (ix2 k j))
          (fun j => x4 (ix2 (0 : Fin 1) j)) j := by
  unfold hidV hiddenAct
  rw [maximumf_apply, addf_apply, addf_apply, dotA_apply, dotB_apply, broadcastTo_1b_ab_apply, broadcast_apply]
  simp only [truncf_apply, shapeCast_self]
  show max _ (Ideal.ofBits .f32 0x00000000#32) = max _ 0
  rw [Ideal.ofBits_zero_f32]

/-- Class `c`'s logit of block row `r`. -/
theorem logitV_apply (r : Fin 2000) (c : Fin 5) :
    logitV x0 x1 x2 x3 x4 x5 x6 (ix2 r c)
      = logit (fun k => x0 (ix2 r k)) (fun k => x1 (ix2 r k)) (fun k j => x2 (ix2 k j)) (fun k j => x3 (ix2 k j))
          (fun j => x4 (ix2 (0 : Fin 1) j)) (fun j c => x5 (ix2 j c)) (fun c => x6 (ix2 (0 : Fin 1) c)) c := by
  unfold logitV logit
  rw [addf_apply, dotC_apply, broadcastTo_1b_ab_apply]
  simp only [truncf_apply, shapeCast_self, hidV_apply]

/-- The body's shifted exponential at row `r` and class `c`. -/
theorem pay2_apply (r : Fin 2000) (c : Fin 5) :
    k0_pay2 (F := Ideal) x0 x1 x2 x3 x4 x5 x6 (ix2 r c)
      = expShift (fun k => x0 (ix2 r k)) (fun k => x1 (ix2 r k)) (fun k j => x2 (ix2 k j)) (fun k j => x3 (ix2 k j))
          (fun j => x4 (ix2 (0 : Fin 1) j)) (fun j c => x5 (ix2 j c)) (fun c => x6 (ix2 (0 : Fin 1) c)) c := by
  rw [pay2_eq]
  unfold expShift rowMax
  show Ideal.exp (logitV x0 x1 x2 x3 x4 x5 x6 (ix2 r c)
      - broadcastTo S2000x5 (shapeCast S2000x1
          (maximumf (broadcast S2000 (Scalar.ofBits (F := Ideal) .f32 0xFF800000#32))
            (multiReduction .maximumf [1] S2000 (logitV x0 x1 x2 x3 x4 x5 x6) 0xFF800000#32 reduces_S2000x5_S2000 (.inl rfl) rfl))
          shapeCasts_S2000_S2000x1) broadcasts_S2000x1_S2000x5 (ix2 r c)) = _
  rw [col_apply, maximumf_apply, rowmax_apply, broadcast_apply, logitV_apply]
  simp only [logitV_apply]
  rfl

end Body

end Cert.KernelIdeal.Row

end
-- ==== Proof.KernelArray.lean ====
/-
  From the blocks to the array: after the run, the kernel's result array [200000, 5] is the row function of
  RowMlp.lean of the arrays the region reads, row by row.

  Grid point `t` (of 100) holds edges `2000 t … 2000 t + 1999`: its node-representation and attribute blocks are those
  rows of their arrays, the five parameter blocks are the whole parameter arrays at every point, and it writes rows
  `2000 t … 2000 t + 1999` of the result. Row `r` of the block it writes is the softmax row of edge `2000 t + r`
  (KernelRow.lean), and every row of the result lies in exactly the block of point `row / 2000`, so the blocks cover
  the array. The parameter arrays the region reads were made by the program before the region from the arguments:
  the first 64 and the last 768 rows of the first-layer weight, and the two biases stood up as one-row arrays; the
  node representations stay the one array the program computed (`V m c main_v18`).
-/
import proofs.«115188_j84129819394297_1_alg».proof.Proof.Gen.KernelIdeal.Value
import proofs.«115188_j84129819394297_1_alg».proof.Proof.KernelRow
import Idealize.ShloMosaic.Lib.StableHlo.Run
import Idealize.ShloMosaic.Lib.Pipeline.Value
import Idealize.ShloMosaic.Lib.ValueIdx
import Idealize.ShloMosaic.Lib.ValueLayout

noncomputable section

open scoped BigOperators

namespace Cert.KernelIdeal.Arr

open Cert.KernelIdeal Cert.KernelIdeal.Gen Cert.KernelIdeal.Row Idealize.ShloMosaic Idealize.ShloMosaic.TcCoe Idealize.SL.Sem
open Idealize.ShloMosaic.ValueIdx Idealize.ShloMosaic.StableHlo Cert.EdgeMlp
open Idealize.ShloMosaic.Pipeline (Dat)

/-! ## One block at an index -/

/-- What the body leaves at row `r`, class `c` of its output block: the quotient of the shifted exponential by the
    row's sum of them, which is the softmax row of the block's row `r`. -/
theorem block_apply (P0 : Vec Ideal S2000x64 .f32) (P1 : Vec Ideal S2000x768 .f32) (P2 : Vec Ideal S64x128 .f32)
    (P3 : Vec Ideal S768x128 .f32) (P4 : Vec Ideal S1x128 .f32) (P5 : Vec Ideal S128x5 .f32) (P6 : Vec Ideal S1x5 .f32)
    (r : Fin 2000) (c : Fin 5) :
    Cert.KernelIdeal.Value.E7 (F := Ideal) P0 P1 P2 P3 P4 P5 P6 (ix2 r c)
      = softmaxRow (fun k => P0 (ix2 r k)) (fun k => P1 (ix2 r k)) (fun k j => P2 (ix2 k j)) (fun k j => P3 (ix2 k j))
          (fun j => P4 (ix2 (0 : Fin 1) j)) (fun j c => P5 (ix2 j c)) (fun c => P6 (ix2 (0 : Fin 1) c)) c := by
  have e0 : Cert.KernelIdeal.Value.ix7_0 (ix2 r c) = ix2 r c :=
    funext fun a => Fin.ext (by match a with | ⟨0, _⟩ => rfl | ⟨1, _⟩ => rfl)
  have e1 : Cert.KernelIdeal.Value.ix7_1 (ix2 r c) = ix1 r :=
    funext fun a => Fin.ext (by match a with | ⟨0, _⟩ => rfl)
  show Ideal.div (k0_pay2 (F := Ideal) P0 P1 P2 P3 P4 P5 P6 (Cert.KernelIdeal.Value.ix7_0 (ix2 r c)))
      (multiReduction .add [1] S2000 (k0_pay2 (F := Ideal) P0 P1 P2 P3 P4 P5 P6) 0x00000000#32 reduces_S2000x5_S2000 (.inl rfl) rfl
        (Cert.KernelIdeal.Value.ix7_1 (ix2 r c))) = _
  rw [e0, e1, rowsum_apply, pay2_apply]
  simp only [pay2_apply]
  rfl

variable (m : (ℓ : Loc nD τ sig) → Buf (Elt Ideal) ℓ) (ρ : Dev nD → PrngReg)

/-! ## The parameter arrays as the region finds them -/

/-- The first 64 rows of the first-layer weight. -/
theorem V_w1a (c : Dev nD) : (V m c main_v19 : Vec Ideal S64x128 .f32)
    = extractStridedSlice S64x128 ![0, 0] (m ((c : Thread nD τ).loc main_arg3)) slices_S832x128_S64x128_0_0 := by
  dsimp only [Gen.V, Gen.hostOps0]; after_results

/-- Its last 768 rows. -/
theorem V_w1b (c : Dev nD) : (V m c main_v20 : Vec Ideal S768x128 .f32)
    = extractStridedSlice S768x128 ![64, 0] (m ((c : Thread nD τ).loc main_arg3)) slices_S832x128_S768x128_64_0 := by
  dsimp only [Gen.V, Gen.hostOps0]; after_results

/-- The first bias as one row. -/
theorem V_b1 (c : Dev nD) : (V m c main_v21 : Vec Ideal S1x128 .f32)
    = shapeCast S1x128 (m ((c : Thread nD τ).loc main_arg4)) shapeCasts_S128_S1x128 := by
  dsimp only [Gen.V, Gen.hostOps0]; after_results; rfl

/-- The second bias as one row. -/
theorem V_b2 (c : Dev nD) : (V m c main_v22 : Vec Ideal S1x5 .f32)
    = shapeCast S1x5 (m ((c : Thread nD τ).loc main_arg6)) shapeCasts_S5_S1x5 := by
  dsimp only [Gen.V, Gen.hostOps0]; after_results; rfl

/-! ## The windows' blocks as rows of their arrays -/

/-- The printed index maps over the grid: the three windows that move take block `t` on the edge axis at point `t`,
    the five parameter windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem lt_N (t : Fin cfg0.N) : t.val < 100 :=
  lt_of_lt_of_eq t.isLt (show cfg0.N = 100 from N_0)

/-- Edge `2000 t + r`: row `r` of point `t`'s blocks. -/
def edge (t : Fin cfg0.N) (r : Fin 2000) : Fin 200000 :=
  ⟨t.val * 2000 + r.val, by have := lt_N t; have := r.isLt; omega⟩

theorem iblk0_apply (c : Dev nD) (t : Fin cfg0.N) (r : Fin 2000) (k : Fin 64) :
    (iblk m c 0 t : Vec Ideal S2000x64 .f32) (ix2 r k) = (V m c main_v18 : Vec Ideal S200000x64 .f32) (ix2 (edge t r) k) := by
  obtain ⟨h0, h1, -⟩ := idx_facts t
  unfold iblk
  rw [View.read_apply]
  show V m c main_v18 _ = V m c main_v18 _
  congr 1
  funext a
  apply Fin.ext
  match a with
  | ⟨0, _⟩ => show win0_0.index t (0 : Fin 2) * 2000 + 1 * r.val = t.val * 2000 + r.val; rw [h0]; omega
  | ⟨1, _⟩ => show win0_0.index t (1 : Fin 2) * 64 + 1 * k.val = k.val; rw [h1]; omega

theorem iblk1_apply (c : Dev nD) (t : Fin cfg0.N) (r : Fin 2000) (k : Fin 768) :
    (iblk m c 1 t : Vec Ideal S2000x768 .f32) (ix2 r k)
      = (m ((c : Thread nD τ).loc main_arg2) : Vec Ideal S200000x768 .f32) (ix2 (edge t r) k) := by
  obtain ⟨-, -, h0, h1, -⟩ := idx_facts t
  unfold iblk
  rw [View.read_apply]
  show V m c main_arg2 _ = _
  rw [V_main_arg2]
  congr 1
  funext a
  apply Fin.ext
  match a with
  | ⟨0, _⟩ => show win0_1.index t (0 : Fin 2) * 2000 + 1 * r.val = t.val * 2000 + r.val; rw [h0]; omega
  | ⟨1, _⟩ => show win0_1.index t (1 : Fin 2) * 768 + 1 * k.val = k.val; rw [h1]; omega

theorem iblk2_apply (c : Dev nD) (t : Fin cfg0.N) (k : Fin 64) (j : Fin 128) :
    (iblk m c 2 t : Vec Ideal S64x128 .f32) (ix2 k j)
      = (m ((c : Thread nD τ).loc main_arg3) : Vec Ideal S832x128 .f32) (ix2 (lo k) j) := by
  obtain ⟨-, -, -, -, h0, h1, -⟩ := idx_facts t
  unfold iblk
  rw [View.read_apply]
  show V m c main_v19 _ = _
  rw [V_w1a]
  refine extractStridedSlice_apply _ _ _ _ (ix2 (lo k) j) (fun a => ?_)
  match a with
  | ⟨0, _⟩ => show k.val = 0 + (win0_2.index t (0 : Fin 2) * 64 + 1 * k.val); rw [h0]; omega
  | ⟨1, _⟩ => show j.val = 0 + (win0_2.index t (1 : Fin 2) * 128 + 1 * j.val); rw [h1]; omega

theorem iblk3_apply (c : Dev nD) (t : Fin cfg0.N) (k : Fin 768) (j : Fin 128) :
    (iblk m c 3 t : Vec Ideal S768x128 .f32) (ix2 k j)
      = (m ((c : Thread nD τ).loc main_arg3) : Vec Ideal S832x128 .f32) (ix2 (hi k) j) := by
  obtain ⟨-, -, -, -, -, -, h0, h1, -⟩ := idx_facts t
  unfold iblk
  rw [View.read_apply]
  show V m c main_v20 _ = _
  rw [V_w1b]
  refine extractStridedSlice_apply _ _ _ _ (ix2 (hi k) j) (fun a => ?_)
  match a with
  | ⟨0, _⟩ => show 64 + k.val = 64 + (win0_3.index t (0 : Fin 2) * 768 + 1 * k.val); rw [h0]; omega
  | ⟨1, _⟩ => show j.val = 0 + (win0_3.index t (1 : Fin 2) * 128 + 1 * j.val); rw [h1]; omega

theorem iblk4_apply (c : Dev nD) (t : Fin cfg0.N) (j : Fin 128) :
    (iblk m c 4 t : Vec Ideal S1x128 .f32) (ix2 (0 : Fin 1) j)
      = (m ((c : Thread nD τ).loc main_arg4) : Vec Ideal S128 .f32) (ix1 j) := by
  obtain ⟨-, -, -, -, -, -, -, -, h0, h1, -⟩ := idx_facts t
  unfold iblk
  rw [View.read_apply]
  show V m c main_v21 _ = _
  rw [V_b1]
  refine shapeCast_apply _ _ _ (ix1 j) ?_
  rw [Shape.rowMajor_val_one, Shape.rowMajor_val_two]
  show j.val = (win0_4.index t (0 : Fin 2) * 1 + 1 * 0) * 128 + (win0_4.index t (1 : Fin 2) * 128 + 1 * j.val)
  rw [h0, h1]; omega

theorem iblk5_apply (c : Dev nD) (t : Fin cfg0.N) (j : Fin 128) (cc : Fin 5) :
    (iblk m c 5 t : Vec Ideal S128x5 .f32) (ix2 j cc)
      = (m ((c : Thread nD τ).loc main_arg5) : Vec Ideal S128x5 .f32) (ix2 j cc) := by
  obtain ⟨-, -, -, -, -, -, -, -, -, -, h0, h1, -⟩ := idx_facts t
  unfold iblk
  rw [View.read_apply]
  show V m c main_arg5 _ = _
  rw [V_main_arg5]
  congr 1
  funext a
  apply Fin.ext
  match a with
  | ⟨0, _⟩ => show win0_5.index t (0 : Fin 2) * 128 + 1 * j.val = j.val; rw [h0]; omega
  | ⟨1, _⟩ => show win0_5.index t (1 : Fin 2) * 5 + 1 * cc.val = cc.val; rw [h1]; omega

theorem iblk6_apply (c : Dev nD) (t : Fin cfg0.N) (cc : Fin 5) :
    (iblk m c 6 t : Vec Ideal S1x5 .f32) (ix2 (0 : Fin 1) cc)
      = (m ((c : Thread nD τ).loc main_arg6) : Vec Ideal S5 .f32) (ix1 cc) := by
  obtain ⟨-, -, -, -, -, -, -, -, -, -, -, -, h0, h1, -⟩ := idx_facts t
  unfold iblk
  rw [View.read_apply]
  show V m c main_v22 _ = _
  rw [V_b2]
  refine shapeCast_apply _ _ _ (ix1 cc) ?_
  rw [Shape.rowMajor_val_one, Shape.rowMajor_val_two]
  show cc.val = (win0_6.index t (0 : Fin 2) * 1 + 1 * 0) * 5 + (win0_6.index t (1 : Fin 2) * 5 + 1 * cc.val)
  rw [h0, h1]; omega

/-! ## The result array -/

/-- The result array: the row function of the node representations the program computed, the edge attributes and the
    four parameter arguments. -/
def result (c : Dev nD) : Vec Ideal S200000x5 .f32 :=
  G (V m c main_v18 : Vec Ideal S200000x64 .f32) (m ((c : Thread nD τ).loc main_arg2) : Vec Ideal S200000x768 .f32)
    (m ((c : Thread nD τ).loc main_arg3) : Vec Ideal S832x128 .f32) (m ((c : Thread nD τ).loc main_arg4) : Vec Ideal S128 .f32)
    (m ((c : Thread nD τ).loc main_arg5) : Vec Ideal S128x5 .f32) (m ((c : Thread nD τ).loc main_arg6) : Vec Ideal S5 .f32)

/-- Row `r` of what point `t` leaves in its block is row `2000 t + r` of the result array. -/
theorem point_eq (c : Dev nD) (t : Fin cfg0.N) (r : Fin 2000) (cc : Fin 5) :
    Cert.KernelIdeal.Value.E7 (F := Ideal) (iblk m c 0 t) (iblk m c 1 t) (iblk m c 2 t) (iblk m c 3 t) (iblk m c 4 t)
        (iblk m c 5 t) (iblk m c 6 t) (ix2 r cc)
      = result m c (ix2 (edge t r) cc) := by
  refine (block_apply (iblk m c 0 t) (iblk m c 1 t) (iblk m c 2 t) (iblk m c 3 t) (iblk m c 4 t) (iblk m c 5 t)
    (iblk m c 6 t) r cc).trans ?_
  simp only [iblk0_apply, iblk1_apply, iblk2_apply, iblk3_apply, iblk4_apply, iblk5_apply, iblk6_apply]
  rfl

theorem hz : (![0, 0] : Fin 2 → Nat) = fun _ => 0 := funext fun a => by fin_cases a <;> rfl

/-- WHAT POINT `t` WRITES BACK is block `t` of the result array. -/
theorem flushed_eq (c : Dev nD) (t : Fin cfg0.N) :
    (dats m 0 c).flushed 7 t = ((cfg0.win 7).blk t).view.read (Elt Ideal) (result m c) := by
  obtain ⟨-, -, -, -, -, -, -, -, -, -, -, -, -, -, h0, h1⟩ := idx_facts t
  rw [Cert.KernelIdeal.Value.flushed7]
  unfold out0_7
  refine funext fun y => ?_
  obtain ⟨r, cc, rfl⟩ : ∃ (r : Fin 2000) (cc : Fin 5), y = ix2 r cc := ⟨y 0, y 1, eq_ix2 y⟩
  have hemb : ((cfg0.win 7).blk t).view.emb (ix2 r cc) = ix2 (edge t r) cc := funext fun a => Fin.ext (by
    match a with
    | ⟨0, _⟩ => show win0_7.index t (0 : Fin 2) * 2000 + 1 * r.val = t.val * 2000 + r.val; rw [h0]; omega
    | ⟨1, _⟩ => show win0_7.index t (1 : Fin 2) * 5 + 1 * cc.val = cc.val; rw [h1]; omega)
  show View.canon [⟨r0_7, k0_pay1 (k0_pay2 (View.ld (iblk m c 0 t) r0_0) (View.ld (iblk m c 1 t) r0_1) (View.ld (iblk m c 2 t) r0_2) (View.ld (iblk m c 3 t) r0_3) (View.ld (iblk m c 4 t) r0_4) (View.ld (iblk m c 5 t) r0_5) (View.ld (iblk m c 6 t) r0_6)) (k0_pay3 (View.ld (iblk m c 0 t) r0_0) (View.ld (iblk m c 1 t) r0_1) (View.ld (iblk m c 2 t) r0_2) (View.ld (iblk m c 3 t) r0_3) (View.ld (iblk m c 4 t) r0_4) (View.ld (iblk m c 5 t) r0_5) (View.ld (iblk m c 6 t) r0_6))⟩] (ix2 r cc)
      = result m c (((cfg0.win 7).blk t).view.emb (ix2 r cc))
  rw [Cert.KernelIdeal.Value.canon7_eq, hemb]
  simp only [View.ld_unit_zero (S := S2000x64) hz, View.ld_unit_zero (S := S2000x768) hz, View.ld_unit_zero (S := S64x128) hz,
    View.ld_unit_zero (S := S768x128) hz, View.ld_unit_zero (S := S1x128) hz, View.ld_unit_zero (S := S128x5) hz,
    View.ld_unit_zero (S := S1x5) hz]
  exact point_eq m c t r cc

/-! ## The blocks cover the array -/

/-- An index of the array is in point `t`'s block iff each coordinate is in the block's range on its axis. -/
theorem mem_blk (t : Fin cfg0.N) (i : S200000x5.Idx) :
    i ∈ ((cfg0.win 7).blk t).view.set ↔ ∀ a : Fin 2, win0_7.index t a * S2000x5.size a ≤ (i a).val ∧ (i a).val < win0_7.index t a * S2000x5.size a + S2000x5.size a := by
  show i ∈ ((View.whole main_v23).slice (win0_7.rect t)).set ↔ _
  rw [View.set_slice_whole, Rect.mem_set_unit]
  exact Iff.rfl

/-- Row `e` of the result lies in the block of point `e / 2000`. -/
theorem cover (i : S200000x5.Idx) : ∃ t : Fin cfg0.N, (cfg0.win 7).flush t = true ∧ i ∈ ((cfg0.win 7).blk t).view.set := by
  have hi0 : (i 0).val < 200000 := (i 0).isLt
  have hi1 : (i 1).val < 5 := (i 1).isLt
  have hN : cfg0.N = 100 := N_0
  have ht : (i 0).val / 2000 < cfg0.N := by rw [hN]; omega
  obtain ⟨-, -, -, -, -, -, -, -, -, -, -, -, -, -, h0, h1⟩ := idx_facts ⟨(i 0).val / 2000, ht⟩
  refine ⟨⟨(i 0).val / 2000, ht⟩, flush0_7 _, ?_⟩
  rw [mem_blk]
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    rw [h0]
    show (i 0).val / 2000 * 2000 ≤ (i 0).val ∧ (i 0).val < (i 0).val / 2000 * 2000 + 2000
    omega
  | ⟨1, _⟩ =>
    show win0_7.index ⟨(i 0).val / 2000, ht⟩ (1 : Fin 2) * 5 ≤ (i 1).val ∧ (i 1).val < win0_7.index ⟨(i 0).val / 2000, ht⟩ (1 : Fin 2) * 5 + 5
    rw [h1]
    omega

/-- THE ARRAY after the run is the result array. -/
theorem final (c : Dev nD) : (dats m 0 c).arrAt 7 cfg0.N = result m c :=
  (dats m 0 c).arrAt_eq_of_cover 7 (result m c) (fun t _ => flushed_eq m c t) cover

/-! ## The run, read -/

/-- The frame run re-posted: the result array at the row function, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Arr

end
-- ==== Proof.RefRow.lean ====
/-
  The reference's result array is the row function of RowMlp.lean, row by row.

  The reference concatenates each edge's node representation (64 features) with its attribute row (768 features) into
  one joint row of 832 features and multiplies by the whole first-layer weight: at hidden unit `j` that is the sum over
  the 832 joint features, which splits into the sum over the first 64 (the node representation against the weight's
  first 64 rows) plus the sum over the last 768 (the attributes against the remaining rows). The rest is read stage
  by stage: the bias rows broadcast down the edges, the clip at zero, the second product as a sum over the 128 hidden
  units, the row maximum as a fold of `max` from −∞ over the five classes, the shifted exponential, the row sum
  (from the initial value 0) and the quotient. The node representations (two gathers of the embedding table and their
  product) stay one opaque array `val_main_v18`.
-/
import proofs.«115188_j84129819394297_1_alg».proof.Proof.Gen.ReferenceIdeal.Read
import proofs.«115188_j84129819394297_1_alg».proof.Proof.RowMlp
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.RefRow

open Cert.ReferenceIdeal Cert.ReferenceIdeal.Gen Cert.ReferenceIdeal.Read Idealize.ShloMosaic Idealize.ShloMosaic.ValueIdx Cert.EdgeMlp

variable (x0 : (⟨S100000x64, .f32⟩ : BufTy).Contents (Elt Ideal)) (x1 : (⟨S2x200000, .i32⟩ : BufTy).Contents (Elt Ideal))
  (x2 : (⟨S200000x768, .f32⟩ : BufTy).Contents (Elt Ideal)) (x3 : (⟨S832x128, .f32⟩ : BufTy).Contents (Elt Ideal))
  (x4 : (⟨S128, .f32⟩ : BufTy).Contents (Elt Ideal)) (x5 : (⟨S128x5, .f32⟩ : BufTy).Contents (Elt Ideal))
  (x6 : (⟨S5, .f32⟩ : BufTy).Contents (Elt Ideal))

/-! ## The joint row -/

/-- Joint feature `k < 64` of edge `e` is feature `k` of its node representation. -/
theorem joint_lo (e : Fin 200000) (k : Fin 64) :
    val_main_v19 (F := Ideal) x0 x1 x2 (ix2 e (lo k)) = val_main_v18 (F := Ideal) x0 x1 (ix2 e k) := by
  unfold val_main_v19
  exact concatenate_pair_apply_left (t := S200000x832) (s₁ := S200000x64) (s₂ := S200000x768) (1 : Fin 2)
    (val_main_v18 (F := Ideal) x0 x1) x2 concatenates_S200000x64_S200000x768_S200000x832_d1 (ix2 e (lo k)) (rfl : (2 : Nat) = 2) (ix2 e k)
    (fun b => match b with | ⟨0, _⟩ => rfl | ⟨1, _⟩ => rfl)

/-- Joint feature `64 + k` of edge `e` is feature `k` of its attribute row. -/
theorem joint_hi (e : Fin 200000) (k : Fin 768) :
    val_main_v19 (F := Ideal) x0 x1 x2 (ix2 e (hi k)) = x2 (ix2 e k) := by
  unfold val_main_v19
  refine concatenate_pair_apply_right (t := S200000x832) (s₁ := S200000x64) (s₂ := S200000x768) (1 : Fin 2)
    (val_main_v18 (F := Ideal) x0 x1) x2 concatenates_S200000x64_S200000x768_S200000x832_d1 (ix2 e (hi k))
    (rfl : (2 : Nat) = 2) (rfl : (2 : Nat) = 2) (ix2 e k) (fun b hb => ?_) ?_
  · match b, hb with
    | ⟨0, _⟩, _ => rfl
    | ⟨1, _⟩, hb => exact absurd rfl hb
  · show k.val + 64 = 64 + k.val
    omega

/-! ## The first layer -/

/-- The joint row times the whole weight, at edge `e` and hidden unit `j`: the two partial sums. -/
theorem v20_apply (e : Fin 200000) (j : Fin 128) :
    val_main_v20 (F := Ideal) x0 x1 x2 x3 (ix2 e j)
      = (∑ k : Fin 64, val_main_v18 (F := Ideal) x0 x1 (ix2 e k) * x3 (ix2 (lo k) j))
        + (∑ k : Fin 768, x2 (ix2 e k) * x3 (ix2 (hi k) j)) := by
  rw [val_main_v20_apply]
  have el : ∀ k : Fin 832, lidx_main_v20 (ix2 e j) k = ix2 e k := fun k =>
    funext fun a => Fin.ext (by match a with | ⟨0, _⟩ => rfl | ⟨1, _⟩ => rfl)
  have er : ∀ k : Fin 832, ridx_main_v20 (ix2 e j) k = ix2 k j := fun k =>
    funext fun a => Fin.ext (by match a with | ⟨0, _⟩ => rfl | ⟨1, _⟩ => rfl)
  simp only [el, er]
  exact sum_joint (fun k => val_main_v19 (F := Ideal) x0 x1 x2 (ix2 e k)) (fun k => x3 (ix2 k j))
    (fun k => val_main_v18 (F := Ideal) x0 x1 (ix2 e k)) (fun k => x2 (ix2 e k)) (joint_lo x0 x1 x2 e) (joint_hi x0 x1 x2 e)

/-- The first bias, broadcast down the edges. -/
theorem v22_apply (e : Fin 200000) (j : Fin 128) : val_main_v22 (F := Ideal) x4 (ix2 e j) = x4 (ix1 j) := by
  rw [val_main_v22_apply, val_main_v21_apply]
  exact congrArg x4 (funext fun a => Fin.ext (by match a with | ⟨0, _⟩ => rfl))

/-- Hidden unit `j` of edge `e`. -/
theorem v24_apply (e : Fin 200000) (j : Fin 128) :
    val_main_v24 (F := Ideal) x0 x1 x2 x3 x4 (ix2 e j)
      = hiddenAct (fun k => val_main_v18 (F := Ideal) x0 x1 (ix2 e k)) (fun k => x2 (ix2 e k))
          (fun k j => x3 (ix2 (lo k) j)) (fun k j => x3 (ix2 (hi k) j)) (fun j => x4 (ix1 j)) j := by
  rw [val_main_v24_apply, val_main_v23_apply, v20_apply, v22_apply, val_main_call0_v0_apply, val_main_call0_cst_apply]
  unfold hiddenAct
  show max _ (Ideal.ofBits .f32 0x00000000#32) = max _ 0
  rw [Ideal.ofBits_zero_f32]
  rfl

/-! ## The second layer -/

/-- The second bias, broadcast down the edges. -/
theorem v27_apply (e : Fin 200000) (c : Fin 5) : val_main_v27 (F := Ideal) x6 (ix2 e c) = x6 (ix1 c) := by
  rw [val_main_v27_apply, val_main_v26_apply]
  exact congrArg x6 (funext fun a => Fin.ext (by match a with | ⟨0, _⟩ => rfl))

/-- Class `c`'s logit of edge `e`. -/
theorem v28_apply (e : Fin 200000) (c : Fin 5) :
    val_main_v28 (F := Ideal) x0 x1 x2 x3 x4 x5 x6 (ix2 e c)
      = logit (fun k => val_main_v18 (F := Ideal) x0 x1 (ix2 e k)) (fun k => x2 (ix2 e k))
          (fun k j => x3 (ix2 (lo k) j)) (fun k j => x3 (ix2 (hi k) j)) (fun j => x4 (ix1 j))
          (fun j c => x5 (ix2 j c)) (fun c => x6 (ix1 c)) c := by
  rw [val_main_v28_apply, val_main_v25_apply, v27_apply]
  have el : ∀ k : Fin 128, lidx_main_v25 (ix2 e c) k = ix2 e k := fun k =>
    funext fun a => Fin.ext (by match a with | ⟨0, _⟩ => rfl | ⟨1, _⟩ => rfl)
  have er : ∀ k : Fin 128, ridx_main_v25 (ix2 e c) k = ix2 k c := fun k =>
    funext fun a => Fin.ext (by match a with | ⟨0, _⟩ => rfl | ⟨1, _⟩ => rfl)
  simp only [el, er, v24_apply]
  rfl

/-! ## The softmax -/

/-- Edge `e`'s largest logit: the fold of `max` from −∞ over the five classes, then once more against −∞. -/
theorem v31_apply (e : Fin 200000) :
    val_main_v31 (F := Ideal) x0 x1 x2 x3 x4 x5 x6 (ix1 e)
      = rowMax (fun k => val_main_v18 (F := Ideal) x0 x1 (ix2 e k)) (fun k => x2 (ix2 e k))
          (fun k j => x3 (ix2 (lo k) j)) (fun k j => x3 (ix2 (hi k) j)) (fun j => x4 (ix1 j))
          (fun j c => x5 (ix2 j c)) (fun c => x6 (ix1 c)) := by
  rw [val_main_v31_apply, val_main_v30_apply, val_main_cst_3_apply]
  unfold rowMax val_main_v29
  show max negInf _ = max negInf _
  refine congrArg (max negInf) ?_
  have hR : S200000x5.Reduces [(1 : Fin 2)] S200000 := by decide
  refine (Host.reduce_eq_fold_single (s := S200000x5) (t := S200000) (a := (1 : Fin 2)) (u := S_) (α := EReal)
    (FloatOps.maximumf (F := Ideal) (φ := .f32)) (val_main_v28 (F := Ideal) x0 x1 x2 x3 x4 x5 x6)
    (val_main_cst (F := Ideal)) reducesTo_S200000x5_S200000_d1 hR h_S_ (ix1 e)).trans ?_
  refine congrArg (fun f : Fin 5 → EReal => (Finset.univ : Finset (Fin 5)).fold max negInf f) (funext fun c => ?_)
  refine Eq.trans (congrArg (val_main_v28 (F := Ideal) x0 x1 x2 x3 x4 x5 x6) (?_ : _ = ix2 e c)) (v28_apply x0 x1 x2 x3 x4 x5 x6 e c)
  funext a
  apply Fin.ext
  match a with
  | ⟨0, _⟩ => rfl
  | ⟨1, _⟩ => rfl

/-- The shifted exponential of edge `e` at class `c`. -/
theorem v35_apply (e : Fin 200000) (c : Fin 5) :
    val_main_v35 (F := Ideal) x0 x1 x2 x3 x4 x5 x6 (ix2 e c)
      = expShift (fun k => val_main_v18 (F := Ideal) x0 x1 (ix2 e k)) (fun k => x2 (ix2 e k))
          (fun k j => x3 (ix2 (lo k) j)) (fun k j => x3 (ix2 (hi k) j)) (fun j => x4 (ix1 j))
          (fun j c => x5 (ix2 j c)) (fun c => x6 (ix1 c)) c := by
  rw [val_main_v35_apply, val_main_v34_apply, val_main_v33_apply, val_main_v32_apply]
  have ei : idx_main_v32 (idx_main_v33 (ix2 e c)) = ix1 e := funext fun a => Fin.ext (by match a with | ⟨0, _⟩ => rfl)
  rw [ei, v31_apply, v28_apply]
  rfl

/-- The row sum of edge `e`'s shifted exponentials, broadcast across the classes. -/
theorem v38_apply (e : Fin 200000) (c : Fin 5) :
    val_main_v38 (F := Ideal) x0 x1 x2 x3 x4 x5 x6 (ix2 e c)
      = ∑ c' : Fin 5, expShift (fun k => val_main_v18 (F := Ideal) x0 x1 (ix2 e k)) (fun k => x2 (ix2 e k))
          (fun k j => x3 (ix2 (lo k) j)) (fun k j => x3 (ix2 (hi k) j)) (fun j => x4 (ix1 j))
          (fun j c => x5 (ix2 j c)) (fun c => x6 (ix1 c)) c' := by
  rw [val_main_v38_apply, val_main_v37_apply]
  have ei : idx_main_v37 (idx_main_v38 (ix2 e c)) = ix1 e := funext fun a => Fin.ext (by match a with | ⟨0, _⟩ => rfl)
  rw [ei, val_main_v36_apply, val_main_cst_4_apply]
  show Ideal.ofBits .f32 0x00000000#32 + _ = _
  rw [Ideal.ofBits_zero_f32, zero_add]
  refine Finset.sum_congr rfl fun c' _ => ?_
  have ej : idx_main_v36 (ix1 e) c' = ix2 e c' := funext fun a => Fin.ext (by match a with | ⟨0, _⟩ => rfl | ⟨1, _⟩ => rfl)
  rw [ej, v35_apply]

/-- THE REFERENCE'S RESULT is the row function of the node representations, the attributes and the parameters. -/
theorem result_eq :
    val_main_v39 (F := Ideal) x0 x1 x2 x3 x4 x5 x6 = G (val_main_v18 (F := Ideal) x0 x1) x2 x3 x4 x5 x6 := by
  funext i
  obtain ⟨e, c, rfl⟩ : ∃ (e : Fin 200000) (c : Fin 5), i = ix2 e c := ⟨i 0, i 1, eq_ix2 i⟩
  rw [val_main_v39_apply, v35_apply, v38_apply]
  rfl

end Cert.ReferenceIdeal.RefRow

end
-- ==== Proof.NodeRep.lean ====
/-
  The node representations: both programs compute them the same way.

  Each edge's node representation is the elementwise product of the embedding rows of its two endpoints: row `s` of
  the edge index array gives one endpoint per edge, a negative index is wrapped once by the table's 100000 rows, and
  the rows are gathered from the embedding table. The program with the kernel computes this array [200000, 64] before
  its one region and hands it to the region as an operand; the reference computes it by the same operations with
  the same constants. So the array the region finds is the reference's stage: one term, read off the program's
  operations before the region, then matched with the reference's stages one by one.
-/
import proofs.«115188_j84129819394297_1_alg».proof.Proof.Gen.KernelIdeal.Frame
import proofs.«115188_j84129819394297_1_alg».proof.Proof.Gen.ReferenceIdeal.Read
import Idealize.ShloMosaic.Lib.StableHlo.Run

noncomputable section

namespace Cert.KernelIdeal.NodeRep

open Cert.KernelIdeal Cert.KernelIdeal.Gen Idealize.ShloMosaic Idealize.ShloMosaic.TcCoe Idealize.SL.Sem Idealize.ShloMosaic.StableHlo

/-- One endpoint's row indices as a column: a negative index wrapped once by the table's 100000 rows. -/
def endpointIdx (raw : IVec S200000 32) : IVec S200000x1 32 :=
  broadcastInDim S200000x1 ![0] bcast_S200000_S200000x1_0
    (select (cmpi .slt raw (broadcastInDim S200000 ![] bcast_S_S200000 (constantI S_ 32 0#32)))
      (addi raw (broadcastInDim S200000 ![] bcast_S_S200000 (constantI S_ 32 100000#32))) raw)

/-- The node representations of all edges, from the embedding table `z` and the edge index array `ei`: the gathered
    rows of the first endpoints times the gathered rows of the second. -/
def nodeRepK (z : FVec Ideal S100000x64 .f32) (ei : IVec S2x200000 32) : FVec Ideal S200000x64 .f32 :=
  mulf (F := Ideal)
    (Host.gather gather_S100000x64_S200000x1_S200000x64_1_0_n_n_0_1_164 z
      (endpointIdx (shapeCast S200000 (extractStridedSlice S1x200000 ![0, 0] ei slices_S2x200000_S1x200000_0_0) shapeCasts_S1x200000_S200000)))
    (Host.gather gather_S100000x64_S200000x1_S200000x64_1_0_n_n_0_1_164 z
      (endpointIdx (shapeCast S200000 (extractStridedSlice S1x200000 ![1, 0] ei slices_S2x200000_S1x200000_1_0) shapeCasts_S1x200000_S200000)))

variable (m : (ℓ : Loc nD τ sig) → Buf (Elt Ideal) ℓ)

/-- The array the region finds as its first operand is the node representations of the launch arguments. -/
theorem V_nodeRep (c : Dev nD) : (V m c main_v18 : FVec Ideal S200000x64 .f32)
    = nodeRepK (m ((c : Thread nD τ).loc main_arg0)) (m ((c : Thread nD τ).loc main_arg1)) := by
  unfold nodeRepK endpointIdx
  dsimp only [Gen.V, Gen.hostOps0]; after_results_simp
  rfl

/-- And that is the reference's stage of the same name: the same operations, one by one. -/
theorem nodeRepK_eq (z : FVec Ideal S100000x64 .f32) (ei : IVec S2x200000 32) :
    nodeRepK z ei = Cert.ReferenceIdeal.Read.val_main_v18 (F := Ideal) z ei := by
  unfold nodeRepK endpointIdx
  unfold Cert.ReferenceIdeal.Read.val_main_v18 Cert.ReferenceIdeal.Read.val_main_v17 Cert.ReferenceIdeal.Read.val_main_v8
    Cert.ReferenceIdeal.Read.val_main_v16 Cert.ReferenceIdeal.Read.val_main_v7
    Cert.ReferenceIdeal.Read.val_main_v15 Cert.ReferenceIdeal.Read.val_main_v6
  rfl

end Cert.KernelIdeal.NodeRep

end
-- ==== Proof.lean ====
/-
  The decoder of a graph network's edges, tiled over the edges, against its plain reference: equal over the
  extended reals.

  Both programs first compute each edge's node representation — the elementwise product of the embedding rows of its
  two endpoints — by the same operations (Proof/NodeRep.lean). The reference then lays the node representation (64
  features) and the edge's attribute row (768 features) side by side, multiplies the 832 joint features by the whole
  first-layer weight, adds the bias, clips at zero, multiplies by the second-layer weight, adds the bias and takes the
  softmax over the 5 classes (Proof/RefRow.lean). The kernel never forms the joint row: on each block of 2000 edges it
  multiplies the node representations by the weight's first 64 rows and the attributes by its last 768 rows and adds
  the two products; the rest is the same (Proof/KernelRow.lean). A sum over the 832 joint features is the sum over
  the first 64 plus the sum over the last 768 (Proof/RowMlp.lean: addition of extended reals is commutative and
  associative, so no finiteness of the inputs is used), and changes of float format are the identity on the extended
  reals; so each row of the kernel's blocks is the reference's row, the 100 blocks cover the 200000 rows
  (Proof/KernelArray.lean), and the two result arrays are one function of the arguments.

  The three frames are the generated ones (the reference's is its generated run with the result dropped); the
  idealized kernel is the kernel's own text read over the extended reals, so nothing is owed for it.
-/
import proofs.«115188_j84129819394297_1_alg».proof.Defs
import proofs.«115188_j84129819394297_1_alg».proof.Proof.Gen.Kernel
import proofs.«115188_j84129819394297_1_alg».proof.Proof.Gen.Kernel.Skeleton
import proofs.«115188_j84129819394297_1_alg».proof.Proof.Gen.Kernel.Launch
import proofs.«115188_j84129819394297_1_alg».proof.Proof.Gen.Kernel.Points
import proofs.«115188_j84129819394297_1_alg».proof.Proof.Gen.Kernel.Frame
import proofs.«115188_j84129819394297_1_alg».proof.Proof.Gen.KernelIdeal
import proofs.«115188_j84129819394297_1_alg».proof.Proof.Gen.KernelIdeal.Skeleton
import proofs.«115188_j84129819394297_1_alg».proof.Proof.Gen.KernelIdeal.Launch
import proofs.«115188_j84129819394297_1_alg».proof.Proof.Gen.KernelIdeal.Points
import proofs.«115188_j84129819394297_1_alg».proof.Proof.Gen.KernelIdeal.Frame
import proofs.«115188_j84129819394297_1_alg».proof.Proof.Gen.ReferenceIdeal
import proofs.«115188_j84129819394297_1_alg».proof.Proof.Gen.Pre_finite_inputs
import proofs.«115188_j84129819394297_1_alg».proof.Proof.Gen.KernelIdeal.Value
import proofs.«115188_j84129819394297_1_alg».proof.Proof.Gen.ReferenceIdeal.Run
import proofs.«115188_j84129819394297_1_alg».proof.Proof.Gen.ReferenceIdeal.Read
import proofs.«115188_j84129819394297_1_alg».proof.Proof.RowMlp
import proofs.«115188_j84129819394297_1_alg».proof.Proof.KernelRow
import proofs.«115188_j84129819394297_1_alg».proof.Proof.KernelArray
import proofs.«115188_j84129819394297_1_alg».proof.Proof.RefRow
import proofs.«115188_j84129819394297_1_alg».proof.Proof.NodeRep
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the row function of the node representations, the
    attributes and the parameters (Proof/KernelArray.lean), and so does the reference's (Proof/RefRow.lean); the node
    representations are one array of the arguments in both (Proof/NodeRep.lean). -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefRow.result_eq]
  obtain ⟨h0, h1, h2, h3, h4, h5, h6⟩ := hagree c
  rw [h0, h1, h2, h3, h4, h5, h6]
  have hnr : (Cert.KernelIdeal.Gen.V m c Cert.KernelIdeal.main_v18 : FVec Ideal Cert.KernelIdeal.S200000x64 .f32)
      = Cert.ReferenceIdeal.Read.val_main_v18 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
    (Cert.KernelIdeal.NodeRep.V_nodeRep m c).trans (Cert.KernelIdeal.NodeRep.nodeRepK_eq _ _)
  show Cert.EdgeMlp.G _ _ _ _ _ _ = Cert.KernelIdeal.Arr.result m c
  unfold Cert.KernelIdeal.Arr.result
  rw [hnr]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
